-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x512 : Shape := ⟨2, ![512, 512]⟩
abbrev S512 : Shape := ⟨1, ![512]⟩
abbrev S156250 : Shape := ⟨1, ![156250]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S156250 : S_.BroadcastsInDim S156250 (![] : Fin 0 → Fin S156250.rank)
  reducesTo_S156250_S_d0 : S156250.ReducesTo [0] S_

variable [Facts]

def fn_part1 {F : FTy → Type} [FloatOps F] (main_arg4 : IVec S156250 32) (main_v13 : IVec S_ 1) (main_v16 : IVec S156250 1) : IVec S_ 1 :=
  let main_c_5 : IVec S_ 1 := constantI S_ 1 1#1
  let main_v17 : IVec S_ 1 := (fun x v => Host.reduce IntOp.andi x v reducesTo_S156250_S_d0 h_S_) main_v16 main_c_5
  let main_v18 : IVec S_ 1 := andi main_v13 main_v17
  let main_c_6 : IVec S_ 32 := constantI S_ 32 0#32
  let main_v19 : IVec S156250 32 := broadcastInDim S156250 ![] bcast_S_S156250 main_c_6
  let main_v20 : IVec S156250 1 := cmpi .sge main_arg4 main_v19
  let main_c_7 : IVec S_ 1 := constantI S_ 1 1#1
  let main_v21 : IVec S_ 1 := (fun x v => Host.reduce IntOp.andi x v reducesTo_S156250_S_d0 h_S_) main_v20 main_c_7
  let main_v22 : IVec S_ 1 := andi main_v18 main_v21
  main_v22

def fn {F : FTy → Type} [FloatOps F] (main_arg0 : FVec F S50000x512 .f32) (main_arg1 : FVec F S512x512 .f32) (main_arg2 : FVec F S512 .f32) (main_arg3 : FVec F S156250 .f32) (main_arg4 : IVec S156250 32) (main_arg5 : IVec S156250 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S156250 .f32 := Host.absf main_arg3
  let main_cst_4 : FVec F S_ .f32 := constant S_ .f32 0x7F800000#32
  let main_v15 : FVec F S156250 .f32 := broadcastInDim S156250 ![] bcast_S_S156250 main_cst_4
  let main_v16 : IVec S156250 1 := cmpf .olt main_v14 main_v15
  fn_part1 (F := F) main_arg4 main_v13 main_v16
-- ==== Kernel.lean ====
abbrev S50000x512 : Shape := ⟨2, ![50000, 512]⟩
abbrev S512x512 : Shape := ⟨2, ![512, 512]⟩
abbrev S512 : Shape := ⟨1, ![512]⟩
abbrev S156250 : Shape := ⟨1, ![156250]⟩
abbrev S2000x512 : Shape := ⟨2, ![2000, 512]⟩
abbrev S_ : Shape := ⟨0, ![]⟩
abbrev S156250x1 : Shape := ⟨2, ![156250, 1]⟩
abbrev S156250x512 : Shape := ⟨2, ![156250, 512]⟩
abbrev S1x512 : Shape := ⟨2, ![1, 512]⟩

abbrev nBuf : Space → Nat
  | .hbm => 31
  | .vmem => 5
  | .smem => 0
  | _ => 0

abbrev bufTy : (tb : Table) → Fin (tcTables nBuf tb) → BufTy
  | .hbm, ⟨0, _⟩ => ⟨S50000x512, .f32⟩
  | .hbm, ⟨1, _⟩ => ⟨S512x512, .f32⟩
  | .hbm, ⟨2, _⟩ => ⟨S512, .f32⟩
  | .hbm, ⟨3, _⟩ => ⟨S156250, .f32⟩
  | .hbm, ⟨4, _⟩ => ⟨S156250, .i32⟩
  | .hbm, ⟨5, _⟩ => ⟨S156250, .i32⟩
  | .hbm, ⟨6, _⟩ => ⟨S512x512, .bf16⟩
  | .hbm, ⟨7, _⟩ => ⟨S50000x512, .f32⟩
  | .hbm, ⟨8, _⟩ => ⟨S_, .i32⟩
  | .hbm, ⟨9, _⟩ => ⟨S156250, .i32⟩
  | .hbm, ⟨10, _⟩ => ⟨S156250, .i1⟩
  | .hbm, ⟨11, _⟩ => ⟨S_, .i32⟩
  | .hbm, ⟨12, _⟩ => ⟨S156250, .i32⟩
  | .hbm, ⟨13, _⟩ => ⟨S156250, .i32⟩
  | .hbm, ⟨14, _⟩ => ⟨S156250, .i32⟩
  | .hbm, ⟨15, _⟩ => ⟨S156250x1, .i32⟩
  | .hbm, ⟨16, _⟩ => ⟨S156250x512, .f32⟩
  | .hbm, ⟨17, _⟩ => ⟨S156250x1, .f32⟩
  | .hbm, ⟨18, _⟩ => ⟨S156250x512, .f32⟩
  | .hbm, ⟨19, _⟩ => ⟨S156250x512, .f32⟩
  | .hbm, ⟨20, _⟩ => ⟨S1x512, .f32⟩
  | .hbm, ⟨21, _⟩ => ⟨S50000x512, .f32⟩
  | .hbm, ⟨22, _⟩ => ⟨S_, .i32⟩
  | .hbm, ⟨23, _⟩ => ⟨S156250, .i32⟩
  | .hbm, ⟨24, _⟩ => ⟨S156250, .i1⟩
  | .hbm, ⟨25, _⟩ => ⟨S_, .i32⟩
  | .hbm, ⟨26, _⟩ => ⟨S156250, .i32⟩
  | .hbm, ⟨27, _⟩ => ⟨S156250, .i32⟩
  | .hbm, ⟨28, _⟩ => ⟨S156250, .i32⟩
  | .hbm, ⟨29, _⟩ => ⟨S156250x1, .i32⟩
  | .hbm, ⟨30, _⟩ => ⟨S50000x512, .f32⟩
  | .local _ .vmem, ⟨0, _⟩ => ⟨S2000x512, .f32⟩
  | .local _ .vmem, ⟨1, _⟩ => ⟨S2000x512, .f32⟩
  | .local _ .vmem, ⟨2, _⟩ => ⟨S512x512, .bf16⟩
  | .local _ .vmem, ⟨3, _⟩ => ⟨S2000x512, .f32⟩
  | .local _ .vmem, ⟨4, _⟩ => ⟨S2000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bcast_S_S156250 : S_.BroadcastsInDim S156250 (![] : Fin 0 → Fin S156250.rank)
  bcast_S156250_S156250x1_0 : S156250.BroadcastsInDim S156250x1 (![0] : Fin 1 → Fin S156250x1.rank)
  bcast_S156250x1_S156250x512_0_1 : S156250x1.BroadcastsInDim S156250x512 (![0, 1] : Fin 2 → Fin S156250x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  dot_S2000x512_S512x512_S2000x512_1_0_0_1_n_n_wf : DotDims.WF S2000x512 S512x512 S2000x512 [1] [0] [0] [1] [] []
  gather_S50000x512_S156250x1_S156250x512_1_0_n_n_0_1_1512_wf : GatherDims.WF S50000x512 S156250x1 S156250x512 [1] [0] [] [0] [] 1 ![1, 512]
  scatter_S50000x512_S156250x1_S156250x512_1_0_0_1_wf : ScatterDims.WF S50000x512 S156250x1 S156250x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S50000x512.size a
  hwx0_2 : ∀ i : grid0.Coords, EltTy.bits .f32 = 32 ∨ (Rect.block (s := S50000x512) S2000x512.size (cc0_transform_2 i) (hinb0_2 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S50000x512_S156250x1_S156250x512_1_0_n_n_0_1_1512 : GatherDims S50000x512 S156250x1 S156250x512 where
  offsetDims := [1]
  collapsedSliceDims := [0]
  operandBatchingDims := []
  startIndicesBatchingDims := []
  startIndexMap := [0]
  indexVectorDim := 1
  sliceSizes := ![1, 512]
  wf := gather_S50000x512_S156250x1_S156250x512_1_0_n_n_0_1_1512_wf
def scatter_S50000x512_S156250x1_S156250x512_1_0_0_1 : ScatterDims S50000x512 S156250x1 S156250x512 where
  updateWindowDims := [1]
  insertedWindowDims := [0]
  scatterDimsToOperandDims := [0]
  indexVectorDim := 1
  wf := scatter_S50000x512_S156250x1_S156250x512_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x512 : Shape := ⟨2, ![50000, 512]⟩
abbrev S512x512 : Shape := ⟨2, ![512, 512]⟩
abbrev S512 : Shape := ⟨1, ![512]⟩
abbrev S156250 : Shape := ⟨1, ![156250]⟩
abbrev S_ : Shape := ⟨0, ![]⟩
abbrev S156250x1 : Shape := ⟨2, ![156250, 1]⟩
abbrev S156250x512 : Shape := ⟨2, ![156250, 512]⟩
abbrev S1x512 : Shape := ⟨2, ![1, 512]⟩

abbrev nBuf : Space → Nat
  | .hbm => 26
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x512, .f32⟩
  | .hbm, ⟨2, _⟩ => ⟨S512, .f32⟩
  | .hbm, ⟨3, _⟩ => ⟨S156250, .f32⟩
  | .hbm, ⟨4, _⟩ => ⟨S156250, .i32⟩
  | .hbm, ⟨5, _⟩ => ⟨S156250, .i32⟩
  | .hbm, ⟨6, _⟩ => ⟨S50000x512, .f32⟩
  | .hbm, ⟨7, _⟩ => ⟨S_, .i32⟩
  | .hbm, ⟨8, _⟩ => ⟨S156250, .i32⟩
  | .hbm, ⟨9, _⟩ => ⟨S156250, .i1⟩
  | .hbm, ⟨10, _⟩ => ⟨S_, .i32⟩
  | .hbm, ⟨11, _⟩ => ⟨S156250, .i32⟩
  | .hbm, ⟨12, _⟩ => ⟨S156250, .i32⟩
  | .hbm, ⟨13, _⟩ => ⟨S156250, .i32⟩
  | .hbm, ⟨14, _⟩ => ⟨S156250x1, .i32⟩
  | .hbm, ⟨15, _⟩ => ⟨S156250x512, .f32⟩
  | .hbm, ⟨16, _⟩ => ⟨S156250x1, .f32⟩
  | .hbm, ⟨17, _⟩ => ⟨S156250x512, .f32⟩
  | .hbm, ⟨18, _⟩ => ⟨S156250x512, .f32⟩
  | .hbm, ⟨19, _⟩ => ⟨S_, .f32⟩
  | .hbm, ⟨20, _⟩ => ⟨S50000x512, .f32⟩
  | .hbm, ⟨21, _⟩ => ⟨S156250x1, .i32⟩
  | .hbm, ⟨22, _⟩ => ⟨S50000x512, .f32⟩
  | .hbm, ⟨23, _⟩ => ⟨S1x512, .f32⟩
  | .hbm, ⟨24, _⟩ => ⟨S50000x512, .f32⟩
  | .hbm, ⟨25, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S156250 : S_.BroadcastsInDim S156250 (![] : Fin 0 → Fin S156250.rank)
  bcast_S156250_S156250x1_0 : S156250.BroadcastsInDim S156250x1 (![0] : Fin 1 → Fin S156250x1.rank)
  bcast_S156250x1_S156250x512_0_1 : S156250x1.BroadcastsInDim S156250x512 (![0, 1] : Fin 2 → Fin S156250x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  dot_S50000x512_S512x512_S50000x512_1_0_0_1_n_n_wf : DotDims.WF S50000x512 S512x512 S50000x512 [1] [0] [0] [1] [] []
  gather_S50000x512_S156250x1_S156250x512_1_0_n_n_0_1_1512_wf : GatherDims.WF S50000x512 S156250x1 S156250x512 [1] [0] [] [0] [] 1 ![1, 512]
  scatter_S50000x512_S156250x1_S156250x512_1_0_0_1_wf : ScatterDims.WF S50000x512 S156250x1 S156250x512 [1] [0] [0] 1

variable [Facts₀]

def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def gather_S50000x512_S156250x1_S156250x512_1_0_n_n_0_1_1512 : GatherDims S50000x512 S156250x1 S156250x512 where
  offsetDims := [1]
  collapsedSliceDims := [0]
  operandBatchingDims := []
  startIndicesBatchingDims := []
  startIndexMap := [0]
  indexVectorDim := 1
  sliceSizes := ![1, 512]
  wf := gather_S50000x512_S156250x1_S156250x512_1_0_n_n_0_1_1512_wf
def scatter_S50000x512_S156250x1_S156250x512_1_0_0_1 : ScatterDims S50000x512 S156250x1 S156250x512 where
  updateWindowDims := [1]
  insertedWindowDims := [0]
  scatterDimsToOperandDims := [0]
  indexVectorDim := 1
  wf := scatter_S50000x512_S156250x1_S156250x512_1_0_0_1_wf

class Facts : Prop extends Facts₀ where

variable [Facts]
-- ==== Proof.EdgeRowDomain.lean ====
/-
  The precondition, read back: every destination-row index is non-negative.

  The precondition is a conjunction of `all`-reductions; its last conjunct is `all (edge_row ≥ 0)`, a signed
  comparison of each index word with the zero word.  From "the conjunction is true" we take the last conjunct, from
  "the all-reduction is true" each element, and from the element the signed inequality.
-/
import proofs.«406915_j2095944041230_3_alg».proof.Pre_finite_inputs
import proofs.«406915_j2095944041230_3_alg».proof.Proof.Gen.Pre_finite_inputs
import Idealize.ShloMosaic.Lib.ReduceAll
import Idealize.ShloMosaic.Lib.ValueIdx

noncomputable section

namespace Cert.Pre_finite_inputs.Domain

open Idealize.ShloMosaic Cert.Pre_finite_inputs Cert.Pre_finite_inputs.Facts

instance : Subsingleton S_.Idx := ⟨fun a b => funext fun d => d.elim0⟩

variable {F : FTy → Type} [FloatOps F]

/-- Under the precondition every entry of the destination-row index vector is a non-negative signed word. -/
theorem edge_row_nonneg (a0 : FVec F S50000x512 .f32) (a1 : FVec F S512x512 .f32) (a2 : FVec F S512 .f32)
    (a3 : FVec F S156250 .f32) (a4 a5 : IVec S156250 32)
    (h : fn (F := F) a0 a1 a2 a3 a4 a5 = fun _ => 1#1) (e : S156250.Idx) : 0 ≤ (a4 e).toInt := by
  have h0 := congrFun h ValueIdx.ix0
  dsimp only [fn, fn_part1] at h0
  have h1 := (IntOp.andi_eq_one.1 h0).2
  have h2 := Host.reduce_andi_all _ _ _ _ _ h1 e
  have h3 : IntOp.cmpi .sge (a4 e) 0#32 = 1#1 := h2
  rw [IntOp.cmpi_sge] at h3
  have : (0#32 : BitVec 32).toInt = 0 := by decide
  rwa [this] at h3

end Cert.Pre_finite_inputs.Domain

end
-- ==== Proof.LibPlainDot.lean ====
/-
  A plain matrix product read at an index.

  For a contraction of an M×K matrix with a K×N matrix along the shared axis (the left operand's axis 1 against the
  right operand's axis 0, no batch axes), the entry at row r and column c is the sum over k of A[r, k] · B[k, c].
  This holds for the kernel's matrix product into a zero accumulator and for the host's dot product alike, on the
  extended reals, and it is stated for ANY dimension-number record with those axis lists, so that each printed record
  is an instance by reflexivity of its lists.
-/
import Idealize.ShloMosaic.Lib.ValueIdx
import Idealize.ShloMosaic.PureOps.Ideal.Laws

noncomputable section

namespace PlainDot

open Idealize.ShloMosaic Idealize.ShloMosaic.ValueIdx

variable {M K N : Nat} {φ₁ φ₂ : FTy}

/-- The axis lists of a plain product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable (d : DotDims ⟨2, ![M, K]⟩ ⟨2, ![K, N]⟩ ⟨2, ![M, N]⟩) (hd : IsPlain d)

include hd

theorem contr_rank : d.contr.rank = 1 := by rw [d.rank_contr, hd.lc]; rfl

theorem contr_size : d.contr.size ⟨0, by rw [contr_rank d hd]; exact Nat.one_pos⟩ = K := by
  have h := d.size_contr 0 (by rw [hd.lc]; exact Nat.one_pos)
  rw [h]
  simp [hd.lc]

/-- The left operand is read at row `r`, column the contraction coordinate. -/
theorem lhsIdx_eq (r : Fin M) (c : Fin N) (k : Fin K) :
    d.lhsIdx (ix2 r c) ((contrEquiv1 d K (contr_rank d hd) (contr_size d hd)).symm k) = ix2 r k := by
  funext a
  apply Fin.ext
  match a with
  | ⟨0, _⟩ =>
    show (d.lhsIdx (ix2 r c) _ (0 : Fin 2)).val = r.val
    unfold DotDims.lhsIdx
    have hb : (0 : Fin 2) ∉ d.lhsBatch := by rw [hd.lb]; exact List.not_mem_nil
    have hn : (0 : Fin 2) ∈ d.lhsNonContracting := by rw [hd.ln]; exact List.mem_singleton.mpr rfl
    rw [dif_neg hb, dif_pos hn]
    simp only [Fin.val_cast]
    have key : ∀ (p : Nat) (hp : p < 2), p = 0 → ((ix2 r c : (⟨2, ![M, N]⟩ : Shape).Idx) ⟨p, hp⟩).val = r.val :=
      fun p hp h => by subst h; rfl
    exact key _ _ (by simp [hd.lb, hd.ln])
  | ⟨1, _⟩ =>
    show (d.lhsIdx (ix2 r c) _ (1 : Fin 2)).val = k.val
    rw [d.lhsIdx_val_of_single hd.lc]
    exact contrEquiv1_symm_val d K (contr_rank d hd) (contr_size d hd) k

/-- The right operand is read at row the contraction coordinate, column `c`. -/
theorem rhsIdx_eq (r : Fin M) (c : Fin N) (k : Fin K) :
    d.rhsIdx (ix2 r c) ((contrEquiv1 d K (contr_rank d hd) (contr_size d hd)).symm k) = ix2 k c := by
  funext a
  apply Fin.ext
  match a with
  | ⟨0, _⟩ =>
    show (d.rhsIdx (ix2 r c) _ (0 : Fin 2)).val = k.val
    rw [d.rhsIdx_val_of_single hd.rc]
    exact contrEquiv1_symm_val d K (contr_rank d hd) (contr_size d hd) k
  | ⟨1, _⟩ =>
    show (d.rhsIdx (ix2 r c) _ (1 : Fin 2)).val = c.val
    unfold DotDims.rhsIdx
    have hb : (1 : Fin 2) ∉ d.rhsBatch := by rw [hd.rb]; exact List.not_mem_nil
    have hn : (1 : Fin 2) ∈ d.rhsNonContracting := by rw [hd.rn]; exact List.mem_singleton.mpr rfl
    rw [dif_neg hb, dif_pos hn]
    simp only [Fin.val_cast]
    have key : ∀ (p : Nat) (hp : p < 2), p = 1 → ((ix2 r c : (⟨2, ![M, N]⟩ : Shape).Idx) ⟨p, hp⟩).val = c.val :=
      fun p hp h => by subst h; rfl
    exact key _ _ (by simp [hd.lb, hd.ln, hd.rn])

/-- The contraction sum, re-indexed by the shared axis's coordinate. -/
theorem sum_eq (A : (⟨2, ![M, K]⟩ : Shape).Idx → EReal) (B : (⟨2, ![K, N]⟩ : Shape).Idx → EReal) (r : Fin M) (c : Fin N) :
    (∑ q : d.contr.Idx, A (d.lhsIdx (ix2 r c) q) * B (d.rhsIdx (ix2 r c) q)) = ∑ k : Fin K, A (ix2 r k) * B (ix2 k c) := by
  rw [← Equiv.sum_comp (contrEquiv1 d K (contr_rank d hd) (contr_size d hd)).symm]
  exact Finset.sum_congr rfl fun k _ => by rw [lhsIdx_eq d hd r c k, rhsIdx_eq d hd r c k]

/-- The kernel's matrix product into the zero accumulator, at an entry. -/
theorem matmul_zero_apply (prec : Option ContractPrecision) (A : FVec Ideal ⟨2, ![M, K]⟩ φ₁) (B : FVec Ideal ⟨2, ![K, N]⟩ φ₂)
    (r : Fin M) (c : Fin N) :
    FloatOps.matmul d prec A B (constant ⟨2, ![M, N]⟩ .f32 0x00000000#32) (ix2 r c) = ∑ k : Fin K, A (ix2 r k) * B (ix2 k c) := by
  rw [Ideal.matmul_constant_zero_apply]
  exact sum_eq d hd A B r c

/-- The host's dot product, at an entry. -/
theorem dotGeneral_apply (prec : Option ContractPrecision) (sched : HostSchedule) (A : FVec Ideal ⟨2, ![M, K]⟩ φ₁)
    (B : FVec Ideal ⟨2, ![K, N]⟩ φ₂) (r : Fin M) (c : Fin N) :
    FloatOps.dotGeneral d prec sched A B (ix2 r c) = ∑ k : Fin K, A (ix2 r k) * B (ix2 k c) := by
  rw [Ideal.dotGeneral_apply]
  exact sum_eq d hd A B r c

end PlainDot

end
-- ==== Proof.DenseTransform.lean ====
/-
  The dense transform, as one array.

  The grid has 25 points; point t multiplies rows 2000·t … 2000·t + 1999 of the node features (a [2000, 512] block)
  by the whole [512, 512] weight matrix and writes the [2000, 512] product back to the same rows of the result.  An
  entry of a block's product is the sum over k of (row of the block)[k] · (column of the weights)[k]; the change of
  float format on the way into the product is the identity on the extended reals.  So after the region the result
  array is ONE function of the two arrays the region finds: entry (r, c) is the sum over k of X[r, k] · W[k, c].
  The 25 row blocks tile the 50000 rows (row r lies in block r / 2000), hence the whole array is that function.
-/
import proofs.«406915_j2095944041230_3_alg».proof.Proof.Gen.KernelIdeal.Frame
import proofs.«406915_j2095944041230_3_alg».proof.Proof.LibPlainDot
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Dense

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- Features times weights: entry (r, c) is the sum over k of X[r, k] · W[k, c]. -/
def support (x : FVec Ideal S50000x512 .f32) (w : FVec Ideal S512x512 .bf16) : FVec Ideal S50000x512 .f32 :=
  fun i => ∑ k : Fin 512, x (ix2 (i 0) k) * w (ix2 k (i 1))

/-- The body's product contracts the block's columns against the weights' rows, with no batch axis. -/
theorem plain : PlainDot.IsPlain dot_S2000x512_S512x512_S2000x512_1_0_0_1_n_n := ⟨rfl, rfl, rfl, rfl, rfl, rfl⟩

/-- One entry of what the body stores: row p of its feature block against column q of the weights. -/
theorem pay_apply (x0 : FVec Ideal S2000x512 .f32) (x1 : FVec Ideal S512x512 .bf16) (p : Fin 2000) (q : Fin 512) :
    k0_pay1 (F := Ideal) x0 x1 (ix2 p q) = ∑ k : Fin 512, x0 (ix2 p k) * x1 (ix2 k q) := by
  unfold k0_pay1
  refine (PlainDot.matmul_zero_apply dot_S2000x512_S512x512_S2000x512_1_0_0_1_n_n plain none _ _ p q).trans ?_
  rw [shapeCast_self]
  rfl

/-- The printed index maps over the grid: the feature and result blocks are row block t, the weights' block is the
    whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point t is rows 2000·t … of the feature array. -/
theorem xblk_apply (c : Dev nD) (t : Fin cfg0.N) (y : S2000x512.Idx) (i : S50000x512.Idx)
    (h0 : (i 0).val = 2000 * t.val + (y 0).val) (h1 : (i 1).val = (y 1).val) :
    (iblk m c 0 t : FVec Ideal S2000x512 .f32) y = (V m c main_arg0 : FVec Ideal S50000x512 .f32) i := by
  obtain ⟨e0, e1, -, -, -, -⟩ := idx_facts t
  unfold iblk
  rw [View.read_apply]
  show V m c main_arg0 _ = V m c main_arg0 _
  congr 1
  funext a
  apply Fin.ext
  match a with
  | ⟨0, _⟩ => show win0_0.index t (0 : Fin 2) * 2000 + 1 * (y 0).val = (i 0).val; rw [e0, h0]; omega
  | ⟨1, _⟩ => show win0_0.index t (1 : Fin 2) * 512 + 1 * (y 1).val = (i 1).val; rw [e1, h1]; omega

/-- The weights' block at every point is the whole weight array. -/
theorem wblk_apply (c : Dev nD) (t : Fin cfg0.N) (y : S512x512.Idx) :
    (iblk m c 1 t : FVec Ideal S512x512 .bf16) y = (V m c main_v0 : FVec Ideal S512x512 .bf16) y := by
  obtain ⟨-, -, e0, e1, -, -⟩ := idx_facts t
  unfold iblk
  rw [View.read_apply]
  show V m c main_v0 _ = V m c main_v0 _
  congr 1
  funext a
  apply Fin.ext
  match a with
  | ⟨0, _⟩ => show win0_1.index t (0 : Fin 2) * 512 + 1 * (y 0).val = (y 0).val; rw [e0]; omega
  | ⟨1, _⟩ => show win0_1.index t (1 : Fin 2) * 512 + 1 * (y 1).val = (y 1).val; rw [e1]; omega

/-- What point t writes back is block t of the product of the arrays the region finds. -/
theorem flushed_eq (c : Dev nD) (t : Fin cfg0.N) :
    (dats m 0 c).flushed 2 t = ((cfg0.win 2).blk t).view.read (Elt Ideal) (support (V m c main_arg0) (V m c main_v0)) := by
  show (cfg0.win 2).cut (grid0.coords t) ((dats m 0 c).after 2 t) = _
  rw [after0_2]
  unfold out0_2
  rw [View.canon_unit_zero hz]
  simp only [View.ld_unit_zero (S := S2000x512) hz, View.ld_unit_zero (S := S512x512) hz]
  obtain ⟨-, -, -, -, e0, e1⟩ := idx_facts t
  funext j
  obtain ⟨p, q, rfl⟩ : ∃ (p : Fin 2000) (q : Fin 512), j = ix2 p q := ⟨j 0, j 1, eq_ix2 j⟩
  show k0_pay1 (F := Ideal) (iblk m c 0 t) (iblk m c 1 t) (ix2 p q) = support (V m c main_arg0) (V m c main_v0) (((cfg0.win 2).blk t).view.emb (ix2 p q))
  refine (pay_apply (iblk m c 0 t) (iblk m c 1 t) p q).trans ?_
  unfold support
  have r0 : ((((cfg0.win 2).blk t).view.emb (ix2 p q)) (0 : Fin 2)).val = 2000 * t.val + p.val := by
    show win0_2.index t (0 : Fin 2) * 2000 + 1 * p.val = _; rw [e0]; omega
  have r1 : ((((cfg0.win 2).blk t).view.emb (ix2 p q)) (1 : Fin 2)).val = q.val := by
    show win0_2.index t (1 : Fin 2) * 512 + 1 * q.val = _; rw [e1]; omega
  refine Finset.sum_congr rfl fun k _ => ?_
  rw [xblk_apply m c t (ix2 p k) (ix2 ((((cfg0.win 2).blk t).view.emb (ix2 p q)) (0 : Fin 2)) k) r0 rfl,
    wblk_apply m c t (ix2 k q)]
  congr 2
  funext a
  apply Fin.ext
  match a with
  | ⟨0, _⟩ => rfl
  | ⟨1, _⟩ => exact r1.symm

/-- An index of the result array is in point t's block iff each coordinate is in the block's range. -/
theorem mem_blk (t : Fin cfg0.N) (i : S50000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v1).slice (win0_2.rect t)).set ↔ _
  rw [View.set_slice_whole, Rect.mem_set_unit]
  exact Iff.rfl

/-- Row r lies in row block r / 2000. -/
theorem cover (i : S50000x512.Idx) : ∃ t : Fin cfg0.N, (cfg0.win 2).flush t = true ∧ i ∈ ((cfg0.win 2).blk t).view.set := by
  have hi0 : (i 0).val < 50000 := (i 0).isLt
  have hi1 : (i 1).val < 512 := (i 1).isLt
  refine ⟨⟨(i 0).val / 2000, by rw [show cfg0.N = 25 from N_0]; omega⟩, flush0_2 _, ?_⟩
  rw [mem_blk]
  obtain ⟨-, -, -, -, e0, e1⟩ := idx_facts ⟨(i 0).val / 2000, by rw [show cfg0.N = 25 from N_0]; omega⟩
  intro a
  match a with
  | ⟨0, _⟩ =>
    show win0_2.index _ (0 : Fin 2) * 2000 ≤ (i 0).val ∧ (i 0).val < win0_2.index _ (0 : Fin 2) * 2000 + 2000
    rw [e0]; show (i 0).val / 2000 * 2000 ≤ (i 0).val ∧ (i 0).val < (i 0).val / 2000 * 2000 + 2000; omega
  | ⟨1, _⟩ =>
    show win0_2.index _ (1 : Fin 2) * 512 ≤ (i 1).val ∧ (i 1).val < win0_2.index _ (1 : Fin 2) * 512 + 512
    rw [e1]; omega

/-- The result array after the region: the product of the arrays the region finds. -/
theorem final (c : Dev nD) : (dats m 0 c).arrAt 2 cfg0.N = support (V m c main_arg0) (V m c main_v0) :=
  (dats m 0 c).arrAt_eq_of_cover 2 (support (V m c main_arg0) (V m c main_v0)) (fun t _ => flushed_eq m c t) cover

end Cert.KernelIdeal.Dense

end
-- ==== Proof.KernelRun.lean ====
/-
  The kernel's run, read: its result array as one function of its argument arrays.

  After the region the program gathers, for every edge e, row edge_col[e] of the dense transform, scales it by
  edge_val[e], and scatter-adds the scaled rows into rows edge_row[e] of an array that starts as the bias laid along
  every row; both index vectors first have their negative entries wrapped by 50000.  `aggregate` is that tail as ONE
  function of the dense transform and the four remaining arguments.  The dense transform itself is the product of
  the feature array with the weights after their change of float format (the host line before the region).
-/
import proofs.«406915_j2095944041230_3_alg».proof.Proof.DenseTransform
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Aggregate

open Cert.KernelIdeal Cert.KernelIdeal.Gen Cert.KernelIdeal.Dense

variable (m : (ℓ : Loc nD τ sig) → Buf (Elt Ideal) ℓ) (ρ : Dev nD → PrngReg)

/-- Gather rows `ec` of `sup`, scale row e by `ev e`, scatter-add into rows `er` of the bias laid along every row;
    negative entries of `er` and `ec` are first wrapped by 50000. -/
def aggregate (sup : FVec Ideal S50000x512 .f32) (b : FVec Ideal S512 .f32) (ev : FVec Ideal S156250 .f32)
    (er ec : IVec S156250 32) : FVec Ideal S50000x512 .f32 :=
  Host.scatterAdd (F := Ideal) scatter_S50000x512_S156250x1_S156250x512_1_0_0_1
    (broadcastInDim S50000x512 ![0, 1] Facts₀.bcast_S1x512_S50000x512_0_1 (broadcastInDim S1x512 ![1] Facts₀.bcast_S512_S1x512_1 b))
    (broadcastInDim S156250x1 ![0] Facts₀.bcast_S156250_S156250x1_0
      (select (cmpi .slt er (broadcastInDim S156250 ![] Facts₀.bcast_S_S156250 (constantI S_ 32 0#32)))
        (addi er (broadcastInDim S156250 ![] Facts₀.bcast_S_S156250 (constantI S_ 32 50000#32))) er))
    (mulf
      (Host.gather gather_S50000x512_S156250x1_S156250x512_1_0_n_n_0_1_1512 sup
        (broadcastInDim S156250x1 ![0] Facts₀.bcast_S156250_S156250x1_0
          (select (cmpi .slt ec (broadcastInDim S156250 ![] Facts₀.bcast_S_S156250 (constantI S_ 32 0#32)))
            (addi ec (broadcastInDim S156250 ![] Facts₀.bcast_S_S156250 (constantI S_ 32 50000#32))) ec)))
      (broadcastInDim S156250x512 ![0, 1] Facts₀.bcast_S156250x1_S156250x512_0_1
        (broadcastInDim S156250x1 ![0] Facts₀.bcast_S156250_S156250x1_0 ev)))

/-- The weights as the region finds them: the argument after its change of float format. -/
theorem weights_found (c : Dev nD) :
    (V m c main_v0 : FVec Ideal S512x512 .bf16) = truncf (F := Ideal) (s := S512x512) (φ := .f32) .bf16 (m ((c : Thread nD τ).loc main_arg1)) Facts₀.bitsLt_bf16_f32 := by
  show StableHlo.after hostOps0 (fun b => m (c, b)) (Proc.devRef .tc main_v0) = _
  after_results

/-- The dense transform of the ARGUMENTS: features times format-changed weights. -/
abbrev dense (c : Dev nD) : FVec Ideal S50000x512 .f32 :=
  support (m ((c : Thread nD τ).loc main_arg0)) (truncf (F := Ideal) (s := S512x512) (φ := .f32) .bf16 (m ((c : Thread nD τ).loc main_arg1)) Facts₀.bitsLt_bf16_f32)

/-- After the region, the result array of the pallas_call holds the dense transform of the arguments. -/
theorem after_region_v1 (c : Dev nD) :
    Pipeline.withArrays (cfgs 0).spec c (V0 m c) (fun w => (dats m 0 c).arrAt w (cfgs 0).N) (Proc.tc.devRef main_v1)
      = dense m c := by
  refine (Pipeline.withArrays_arr spec0 launch0.win.arr_inj c _ _ 2).trans ?_
  refine (final m c).trans ?_
  rw [V_main_arg0 m c, weights_found m c]

theorem after_region_arg2 (c : Dev nD) :
    Pipeline.withArrays (cfgs 0).spec c (V0 m c) (fun w => (dats m 0 c).arrAt w (cfgs 0).N) (Proc.tc.devRef main_arg2)
      = m ((c : Thread nD τ).loc main_arg2) :=
  (Pipeline.withArrays_of_ne _ c (V0 m c) _ main_arg2 (by exact (by decide : ∀ w, Pipeline.arrRef spec0 w ≠ main_arg2))).trans (V_main_arg2 m c)
theorem after_region_arg3 (c : Dev nD) :
    Pipeline.withArrays (cfgs 0).spec c (V0 m c) (fun w => (dats m 0 c).arrAt w (cfgs 0).N) (Proc.tc.devRef main_arg3)
      = m ((c : Thread nD τ).loc main_arg3) :=
  (Pipeline.withArrays_of_ne _ c (V0 m c) _ main_arg3 (by exact (by decide : ∀ w, Pipeline.arrRef spec0 w ≠ main_arg3))).trans (V_main_arg3 m c)
theorem after_region_arg4 (c : Dev nD) :
    Pipeline.withArrays (cfgs 0).spec c (V0 m c) (fun w => (dats m 0 c).arrAt w (cfgs 0).N) (Proc.tc.devRef main_arg4)
      = m ((c : Thread nD τ).loc main_arg4) :=
  (Pipeline.withArrays_of_ne _ c (V0 m c) _ main_arg4 (by exact (by decide : ∀ w, Pipeline.arrRef spec0 w ≠ main_arg4))).trans (V_main_arg4 m c)
theorem after_region_arg5 (c : Dev nD) :
    Pipeline.withArrays (cfgs 0).spec c (V0 m c) (fun w => (dats m 0 c).arrAt w (cfgs 0).N) (Proc.tc.devRef main_arg5)
      = m ((c : Thread nD τ).loc main_arg5) :=
  (Pipeline.withArrays_of_ne _ c (V0 m c) _ main_arg5 (by exact (by decide : ∀ w, Pipeline.arrRef spec0 w ≠ main_arg5))).trans (V_main_arg5 m c)

set_option maxHeartbeats 4000000 in
/-- The program's result after the host lines that follow the region. -/
theorem result_eq (c : Dev nD) :
    Pipeline.afterTail₀ cfgs (dats m) 0 (V0 m) [hostOps1] c main_v20
      = aggregate (dense m c) (m ((c : Thread nD τ).loc main_arg2)) (m ((c : Thread nD τ).loc main_arg3))
          (m ((c : Thread nD τ).loc main_arg4)) (m ((c : Thread nD τ).loc main_arg5)) := by
  unfold Pipeline.afterTail₀
  show StableHlo.after hostOps1 _ (Proc.devRef .tc main_v20) = _
  after_results
  rw [after_region_v1 m c, after_region_arg2 m c, after_region_arg3 m c, after_region_arg4 m c, after_region_arg5 m c]
  rfl

/-- Every weakly fair execution ends with the result at `aggregate` of the dense transform and the arguments, and the
    arguments unchanged. -/
theorem run : θ_run defs (onTc (τ := τ) (main (F := Ideal))) ⟨m, fun _ => 0, ρ⟩ fun r => ∀ c : Dev nD,
      r.2.mem ((c.tc : Thread nD τ).loc main_v20)
        = aggregate (dense m c) (m ((c : Thread nD τ).loc main_arg2)) (m ((c : Thread nD τ).loc main_arg3))
            (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v20 (Pipeline.mem_restRefs_of main_v20 (by decide) (by decide))).trans (result_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Aggregate

end
-- ==== Proof.ScatterLaws.lean ====
/-
  Two laws of the sparse aggregation, on the extended reals.

  (1) A scatter-add accumulates, at each element of its operand, the operand's value plus the sum of the updates that
  land there.  Hence scattering into an array X is scattering into an all-zero array and adding X afterwards:
  X i + S i = (0 + S i) + X i, by commutativity of + alone (no finiteness is needed).

  (2) The index normalisation "if r < 0 then r + n else r" is the identity on a non-negative index vector.
-/
import Idealize.ShloMosaic.Lib.ValueIdx
import Idealize.ShloMosaic.Lib.Affine
import Idealize.ShloMosaic.PureOps.Ideal.Laws

noncomputable section

namespace Aggregation

open Idealize.ShloMosaic

/-- Scatter-add into `X` is scatter-add into zeros, then plus `X`. -/
theorem scatterAdd_into_eq_zero_then_add {s si u : Shape} {w : Nat} (d : ScatterDims s si u)
    (X Z : FVec Ideal s .f32) (idx : IVec si w) (U : FVec Ideal u .f32) (hZ : ∀ i, Z i = 0) :
    Host.scatterAdd d X idx U = addf (Host.scatterAdd d Z idx U) X := by
  funext i
  show X i + _ = (Z i + _) + X i
  rw [hZ i, zero_add, add_comm]

/-- Wrapping negative indices by `n` leaves a non-negative index vector unchanged. -/
theorem wrap_of_nonneg {s : Shape} (r z n : IVec s 32) (hz : ∀ e, z e = 0#32) (h : ∀ e, 0 ≤ (r e).toInt) :
    select (cmpi .slt r z) (addi r n) r = r := by
  funext e
  show Scalar.select (IntOp.cmpi .slt (r e) (z e)) _ _ = r e
  have hc : ¬ IntOp.cmpi .slt (r e) (z e) = 1#1 := by
    rw [IntOp.cmpi_slt, hz e]
    have : (0#32 : BitVec 32).toInt = 0 := by decide
    rw [this]
    exact not_lt.mpr (h e)
  unfold Scalar.select
  exact if_neg hc

end Aggregation

end
-- ==== Proof.Bridge.lean ====
/-
  The reference computes the kernel's function.

  The reference forms the same dense transform by the host's matrix product — entry (r, c) is again the sum over k
  of X[r, k] · W[k, c], the kernel's change of the weights' float format being the identity on the extended reals —,
  gathers and scales the same rows, and scatter-adds them into an all-zero array at the RAW destination rows, adding
  the bias afterwards.  Two things differ from the kernel's tail: the kernel wraps negative destination rows by 50000
  (the identity once every destination row is non-negative, which is the precondition's last conjunct), and it starts
  the accumulation from the bias instead of adding the bias at the end (equal by commutativity of +).
-/
import proofs.«406915_j2095944041230_3_alg».proof.Proof.KernelRun
import proofs.«406915_j2095944041230_3_alg».proof.Proof.ScatterLaws
import proofs.«406915_j2095944041230_3_alg».proof.Proof.LibPlainDot
import proofs.«406915_j2095944041230_3_alg».proof.Proof.Gen.ReferenceIdeal.Run

noncomputable section

namespace Cert.ReferenceIdeal.Bridge

open Cert.ReferenceIdeal Cert.ReferenceIdeal.Facts₀ Idealize.ShloMosaic Idealize.ShloMosaic.ValueIdx

/-- The host's product contracts the features' columns against the weights' rows, with no batch axis. -/
theorem plain : PlainDot.IsPlain dot_S50000x512_S512x512_S50000x512_1_0_0_1_n_n := ⟨rfl, rfl, rfl, rfl, rfl, rfl⟩

/-- The host's matrix product of features and weights is the kernel's dense transform of the same two arrays. -/
theorem dot_eq_support (x : FVec Ideal S50000x512 .f32) (w : FVec Ideal S512x512 .f32) :
    Host.dotGeneral (F := Ideal) dot_S50000x512_S512x512_S50000x512_1_0_0_1_n_n none x w
      = Cert.KernelIdeal.Dense.support x (truncf .bf16 w Cert.KernelIdeal.Facts₀.bitsLt_bf16_f32) := by
  funext i
  obtain ⟨r, c, rfl⟩ : ∃ (r : Fin 50000) (c : Fin 512), i = ix2 r c := ⟨i 0, i 1, eq_ix2 i⟩
  simp only [Host.dotGeneral]
  exact PlainDot.dotGeneral_apply dot_S50000x512_S512x512_S50000x512_1_0_0_1_n_n plain none .single x w r c

/-- The reference's result term is the kernel's `aggregate` of the dense transform, when every destination row is
    non-negative. -/
theorem reference_eq_aggregate (x : FVec Ideal S50000x512 .f32) (w : FVec Ideal S512x512 .f32) (b : FVec Ideal S512 .f32)
    (ev : FVec Ideal S156250 .f32) (er ec : IVec S156250 32) (h : ∀ e, 0 ≤ (er e).toInt) :
    addf (Host.scatterAdd (F := Ideal) scatter_S50000x512_S156250x1_S156250x512_1_0_0_1
        (broadcastInDim S50000x512 ![] bcast_S_S50000x512 (constant S_ .f32 0x00000000#32))
        (broadcastInDim S156250x1 ![0] bcast_S156250_S156250x1_0 er)
        (mulf
          (Host.gather gather_S50000x512_S156250x1_S156250x512_1_0_n_n_0_1_1512
            (Host.dotGeneral dot_S50000x512_S512x512_S50000x512_1_0_0_1_n_n none x w)
            (broadcastInDim S156250x1 ![0] bcast_S156250_S156250x1_0
              (select (cmpi .slt ec (broadcastInDim S156250 ![] bcast_S_S156250 (constantI S_ 32 0#32)))
                (addi ec (broadcastInDim S156250 ![] bcast_S_S156250 (constantI S_ 32 50000#32))) ec)))
          (broadcastInDim S156250x512 ![0, 1] bcast_S156250x1_S156250x512_0_1
            (broadcastInDim S156250x1 ![0] bcast_S156250_S156250x1_0 ev))))
      (broadcastInDim S50000x512 ![0, 1] bcast_S1x512_S50000x512_0_1 (broadcastInDim S1x512 ![1] bcast_S512_S1x512_1 b))
    = Cert.KernelIdeal.Aggregate.aggregate
        (Cert.KernelIdeal.Dense.support x (truncf .bf16 w Cert.KernelIdeal.Facts₀.bitsLt_bf16_f32)) b ev er ec := by
  rw [dot_eq_support]
  unfold Cert.KernelIdeal.Aggregate.aggregate
  rw [Aggregation.wrap_of_nonneg er
    (broadcastInDim Cert.KernelIdeal.S156250 ![] Cert.KernelIdeal.Facts₀.bcast_S_S156250 (constantI Cert.KernelIdeal.S_ 32 0#32))
    (broadcastInDim Cert.KernelIdeal.S156250 ![] Cert.KernelIdeal.Facts₀.bcast_S_S156250 (constantI Cert.KernelIdeal.S_ 32 50000#32))
    (fun _ => rfl) h]
  exact (Aggregation.scatterAdd_into_eq_zero_then_add _ _ _ _ _ (fun _ => Ideal.ofBits_zero_f32)).symm

end Cert.ReferenceIdeal.Bridge

end
-- ==== Proof.lean ====
/- The kernel is a graph convolution: a dense transform (node features times a weight matrix, computed block of rows
   by block of rows on the matrix unit, the weights first changed to a narrower float format), then a sparse
   aggregation (for every edge, the source node's transformed row scaled by the edge's value is added into the
   destination node's row), with the bias added to every row.  The reference computes the same with one whole matrix
   product, a segment sum from zero, and the bias added last.

   On the extended reals the change of float format is the identity and both matrix products are the same sums, so the
   dense transforms agree entry by entry (Proof/DenseTransform.lean for the kernel's blocks, Proof/Bridge.lean for the
   host's product).  The two aggregations differ in where the bias enters (an initial value against a final addend:
   commutativity of +, Proof/ScatterLaws.lean) and in the kernel wrapping negative destination rows by the node count
   where the reference leaves them out of range; under the precondition's conjunct that destination rows are
   non-negative (Proof/EdgeRowDomain.lean) the wrap is the identity.  The three frame claims are the generated frames
   and the reference's generated run; the idealization rewrote nothing. -/
import proofs.«406915_j2095944041230_3_alg».proof.Defs
import proofs.«406915_j2095944041230_3_alg».proof.Proof.Gen.Kernel
import proofs.«406915_j2095944041230_3_alg».proof.Proof.Gen.Kernel.Skeleton
import proofs.«406915_j2095944041230_3_alg».proof.Proof.Gen.Kernel.Launch
import proofs.«406915_j2095944041230_3_alg».proof.Proof.Gen.Kernel.Points
import proofs.«406915_j2095944041230_3_alg».proof.Proof.Gen.Kernel.Frame
import proofs.«406915_j2095944041230_3_alg».proof.Proof.Gen.KernelIdeal
import proofs.«406915_j2095944041230_3_alg».proof.Proof.Gen.KernelIdeal.Skeleton
import proofs.«406915_j2095944041230_3_alg».proof.Proof.Gen.KernelIdeal.Launch
import proofs.«406915_j2095944041230_3_alg».proof.Proof.Gen.KernelIdeal.Points
import proofs.«406915_j2095944041230_3_alg».proof.Proof.Gen.KernelIdeal.Frame
import proofs.«406915_j2095944041230_3_alg».proof.Proof.Gen.ReferenceIdeal
import proofs.«406915_j2095944041230_3_alg».proof.Proof.Gen.ReferenceIdeal.Run
import proofs.«406915_j2095944041230_3_alg».proof.Proof.Gen.Pre_finite_inputs
import proofs.«406915_j2095944041230_3_alg».proof.Proof.EdgeRowDomain
import proofs.«406915_j2095944041230_3_alg».proof.Proof.Bridge
import Idealize.ShloMosaic.Adequacy
import Idealize.ShloMosaic.Init

noncomputable section

namespace Cert.Proof

open Idealize.ShloMosaic Idealize.SL.Sem Cert.Kernel

/-- Both idealized programs end with the result array at the kernel's `aggregate` of the dense transform of the
    arguments: the kernel by its run read back, the reference because its result term is that function once the
    destination rows are non-negative. -/
theorem algebraic : Cert.algebraic_KernelIdeal_ReferenceIdeal := by
  intro m ρ m' ρ' hpre hagree
  refine ⟨_, Cert.KernelIdeal.Aggregate.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  exact Cert.ReferenceIdeal.Bridge.reference_eq_aggregate _ _ _ _ _ _
    (Cert.Pre_finite_inputs.Domain.edge_row_nonneg _ _ _ _ _ _ (hpre c))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
